-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x4096 : Shape := ⟨3, ![16, 1024, 4096]⟩
abbrev S16x1024x1024 : Shape := ⟨3, ![16, 1024, 1024]⟩
abbrev S1024x4096 : Shape := ⟨2, ![1024, 4096]⟩
abbrev S1024 : Shape := ⟨1, ![1024]⟩
abbrev S_ : Shape := ⟨0, ![]⟩

class Facts : Prop where
  bcast_S_S16x1024x4096 : S_.BroadcastsInDim S16x1024x4096 (![] : Fin 0 → Fin S16x1024x4096.rank)
  reducesTo_S16x1024x4096_S_d0_1_2 : S16x1024x4096.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x1024x4096 .f32) (main_arg1 : FVec F S16x1024x1024 .f32) (main_arg2 : FVec F S1024x4096 .f32) (main_arg3 : FVec F S1024 .f32) : IVec S_ 1 :=
  let main_v0 : FVec F S16x1024x4096 .f32 := Host.absf main_arg0
  let main_cst : FVec F S_ .f32 := constant S_ .f32 0x7F800000#32
  let main_v1 : FVec F S16x1024x4096 .f32 := broadcastInDim S16x1024x4096 ![] bcast_S_S16x1024x4096 main_cst
  let main_v2 : IVec S16x1024x4096 1 := cmpf .olt main_v0 main_v1
  let main_c : IVec S_ 1 := constantI S_ 1 1#1
  let main_v3 : IVec S_ 1 := (fun x v => Host.reduce IntOp.andi x v reducesTo_S16x1024x4096_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x1024x4096 : Shape := ⟨3, ![16, 1024, 4096]⟩
abbrev S16x1024x1024 : Shape := ⟨3, ![16, 1024, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S16384x4096 : Shape := ⟨2, ![16384, 4096]⟩
abbrev S16384x1024 : Shape := ⟨2, ![16384, 1024]⟩
abbrev S1x1024 : Shape := ⟨2, ![1, 1024]⟩
abbrev S256x512 : Shape := ⟨2, ![256, 512]⟩
abbrev S1024x512 : Shape := ⟨2, ![1024, 512]⟩
abbrev S256x1024 : Shape := ⟨2, ![256, 1024]⟩

abbrev nBuf : Space → Nat
  | .hbm => 32
  | .vmem => 10
  | .smem => 0
  | _ => 0

abbrev bufTy : (tb : Table) → Fin (tcTables nBuf tb) → BufTy
  | .hbm, ⟨0, _⟩ => ⟨S16x1024x4096, .f32⟩
  | .hbm, ⟨1, _⟩ => ⟨S16x1024x1024, .f32⟩
  | .hbm, ⟨2, _⟩ => ⟨S1024x4096, .f32⟩
  | .hbm, ⟨3, _⟩ => ⟨S1024, .f32⟩
  | .hbm, ⟨4, _⟩ => ⟨S1024x4096, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S16384x4096, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16x1024x1024, .f32⟩
  | .local _ .vmem, ⟨0, _⟩ => ⟨S256x512, .f32⟩
  | .local _ .vmem, ⟨1, _⟩ => ⟨S256x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S16x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S_S1024x4096 : S_.BroadcastsInDim S1024x4096 (![] : Fin 0 → Fin S1024x4096.rank)
  shapeCasts_S16x1024x4096_S16384x4096 : S16x1024x4096.ShapeCasts S16384x4096
  shapeCasts_S16x1024x1024_S16384x1024 : S16x1024x1024.ShapeCasts S16384x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S16384x1024_S16x1024x1024 : S16384x1024.ShapeCasts S16x1024x1024
  dot_S256x512_S1024x512_S256x1024_1_1_0_0_n_n_wf : DotDims.WF S256x512 S1024x512 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x4096.size a
  hwx0_0 : ∀ i : grid0.Coords, EltTy.bits .f32 = 32 ∨ (Rect.block (s := S16384x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .f32 = 32 ∨ (Rect.block (s := S1024x4096) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S16384x1024.size a
  hwx0_4 : ∀ i : grid0.Coords, EltTy.bits .f32 = 32 ∨ (Rect.block (s := S16384x1024) S256x1024.size (cc0_transform_4 i) (hinb0_4 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf

abbrev win0_0 : Pipeline.Window sig grid0 :=
  Pipeline.Window.ofSpec (Memref.whole main_v13) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x1024x4096 : Shape := ⟨3, ![16, 1024, 4096]⟩
abbrev S16x1024x1024 : Shape := ⟨3, ![16, 1024, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x1024x4096, .f32⟩
  | .hbm, ⟨1, _⟩ => ⟨S16x1024x1024, .f32⟩
  | .hbm, ⟨2, _⟩ => ⟨S1024x4096, .f32⟩
  | .hbm, ⟨3, _⟩ => ⟨S1024, .f32⟩
  | .hbm, ⟨4, _⟩ => ⟨S1024x4096, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S16x1024x1024, .f32⟩
  | .hbm, ⟨28, _⟩ => ⟨S1x1x1024, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | _, _ => ⟨S16x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S_S1024x4096 : S_.BroadcastsInDim S1024x4096 (![] : Fin 0 → Fin S1024x4096.rank)
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  dot_S16x1024x4096_S1024x4096_S16x1024x1024_2_1_01_0_n_n_wf : DotDims.WF S16x1024x4096 S1024x4096 S16x1024x1024 [2] [1] [0, 1] [0] [] []

variable [Facts₀]

def dot_S16x1024x4096_S1024x4096_S16x1024x1024_2_1_01_0_n_n : DotDims S16x1024x4096 S1024x4096 S16x1024x1024 where
  lhsContracting := [2]
  rhsContracting := [1]
  lhsNonContracting := [0, 1]
  rhsNonContracting := [0]
  lhsBatch := []
  rhsBatch := []
  wf := dot_S16x1024x4096_S1024x4096_S16x1024x1024_2_1_01_0_n_n_wf

class Facts : Prop extends Facts₀ where

variable [Facts]
-- ==== Proof.Pieces.lean ====
/-
  What one run of the kernel body leaves behind, as values.

  The body keeps a running product in a scratch block of 256 rows by 1024 columns. At every grid point it adds to the
  scratch the product of the point's activation block x (256 by 512) with the transpose of the point's weight block w
  (1024 by 512); at the first of the eight column steps it first clears the scratch, and at the last it also writes
  scratch + bias + residual to the output block. Writing `step x w a` for "a plus x times w-transposed" (the body's
  second store, `k0_pay2`), `zero` for the cleared scratch (`k0_pay1`) and `finish a b r` for a + b + r (`k0_pay3`):

    first column step :  scratch  <-  step x w zero
    a middle step     :  scratch  <-  step x w (scratch before)
    last column step  :  scratch  <-  step x w (scratch before),   output  <-  finish (the new scratch) b r

  Each lemma reads one of these off the stores the body's run found: every store covers its whole buffer, so the last
  store is what the buffer holds, and a load after a store reads that store's value.
-/
import proofs.«161715_j48318382080289_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen

variable {F : FTy → Type} [FloatOps F]

/-- The two zero offsets of a whole-block access. -/
theorem hz : (![0, 0] : Fin 2 → Nat) = fun _ => 0 := funext fun a => by fin_cases a <;> rfl

/-- A middle column step: the scratch holding `xs0` ends at `xs0` plus the block product. -/
theorem scratch_B (c : Dev nD) (i : grid0.Coords) (a2 : Memref sig .tc .vmem S256x512 .f32) (h2 : a2.IsWhole) (a3 : Memref sig .tc .vmem S1024x512 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (hc0 : ¬cond0_0 i) (hc1 : ¬cond0_1 i) (x0 : Vec F S256x512 .f32) (x1 : Vec F S1024x512 .f32) (x2 : Vec F S1x1024 .f32) (x3 : Vec F S256x1024 .f32) (xs0 : Vec F S256x1024 .f32) :
    sout0_B_0 c i a2 h2 a3 h3 a4 h4 a5 h5 a6 h6 a7 h7 hc0 hc1 x0 x1 x2 x3 xs0 = k0_pay2 x0 x1 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h7.read_unread, View.ld_unit_zero (S := S256x512) hz,
    View.ld_unit_zero (S := S1024x512) hz, View.ld_unit_zero (S := S256x1024) hz]

/-- The first column step: the scratch is cleared, and the cleared block is what the update reads back. -/
theorem scratch_A (c : Dev nD) (i : grid0.Coords) (a2 : Memref sig .tc .vmem S256x512 .f32) (h2 : a2.IsWhole) (a3 : Memref sig .tc .vmem S1024x512 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (hc0 : cond0_0 i) (hc1 : ¬cond0_1 i) (x0 : Vec F S256x512 .f32) (x1 : Vec F S1024x512 .f32) (x2 : Vec F S1x1024 .f32) (x3 : Vec F S256x1024 .f32) :
    sout0_A_0 c i a2 h2 a3 h3 a4 h4 a5 h5 a6 h6 a7 h7 hc0 hc1 x0 x1 x2 x3 = k0_pay2 x0 x1 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x1024) hz]
  simp only [View.readAt_eq_ld, h2.read_unread, h3.read_unread, View.ld_unit_zero (S := S256x512) hz,
    View.ld_unit_zero (S := S1024x512) hz, View.readCov_unit_zero (S := S256x1024) _ hz]

/-- The last column step, the scratch: as at a middle step. -/
theorem scratch_C (c : Dev nD) (i : grid0.Coords) (a2 : Memref sig .tc .vmem S256x512 .f32) (h2 : a2.IsWhole) (a3 : Memref sig .tc .vmem S1024x512 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (hc0 : ¬cond0_0 i) (hc1 : cond0_1 i) (x0 : Vec F S256x512 .f32) (x1 : Vec F S1024x512 .f32) (x2 : Vec F S1x1024 .f32) (x3 : Vec F S256x1024 .f32) (xs0 : Vec F S256x1024 .f32) :
    sout0_C_0 c i a2 h2 a3 h3 a4 h4 a5 h5 a6 h6 a7 h7 hc0 hc1 x0 x1 x2 x3 xs0 = k0_pay2 x0 x1 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h7.read_unread, View.ld_unit_zero (S := S256x512) hz,
    View.ld_unit_zero (S := S1024x512) hz, View.ld_unit_zero (S := S256x1024) hz]

/-- The last column step, the output block: the updated scratch, read back, plus the bias row plus the residual. -/
theorem out_C (c : Dev nD) (i : grid0.Coords) (a2 : Memref sig .tc .vmem S256x512 .f32) (h2 : a2.IsWhole) (a3 : Memref sig .tc .vmem S1024x512 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (hc0 : ¬cond0_0 i) (hc1 : cond0_1 i) (x0 : Vec F S256x512 .f32) (x1 : Vec F S1024x512 .f32) (x2 : Vec F S1x1024 .f32) (x3 : Vec F S256x1024 .f32) (xs0 : Vec F S256x1024 .f32) :
    out0_C_4 c i a2 h2 a3 h3 a4 h4 a5 h5 a6 h6 a7 h7 hc0 hc1 x0 x1 x2 x3 xs0 = k0_pay3 (k0_pay2 x0 x1 xs0) x2 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S256x512) hz, View.ld_unit_zero (S := S1024x512) hz, View.ld_unit_zero (S := S256x1024) hz,
    View.ld_unit_zero (S := S1x1024) hz, View.readCov_unit_zero (S := S256x1024) _ hz]

end Cert.KernelIdeal.Pieces

end
-- ==== Proof.Acc.lean ====
/-
  The scratch block point by point, and the output block at the last column step.

  The grid has 64 row blocks times 8 column steps, walked row block by row block: point n is row block n / 8, column
  step n % 8. `acc n` is what the scratch holds after point n: at a first column step (n % 8 = 0) the block product
  added to the cleared scratch, otherwise the block product added to what point n - 1 left. This is exactly the
  recursion by which the frame states the buffers' contents, one case per kind of point, so the two agree by induction
  on n; and at a last column step (n % 8 = 7) the output block is `acc n` plus the bias row plus the residual block.
-/
import proofs.«161715_j48318382080289_1_alg».proof.Proof.Pieces

set_option maxRecDepth 16384

noncomputable section

open Idealize.ShloMosaic Idealize.ShloMosaic.TcCoe Idealize.SL.Sem

namespace Cert.KernelIdeal.Acc

open Cert.KernelIdeal Cert.KernelIdeal.Gen Cert.KernelIdeal.Pieces

variable {F : FTy → Type} [FloatOps F]
variable (m : (ℓ : Loc nD τ sig) → Buf (Elt F) ℓ)

/-- The four input blocks of a point, at their literal shapes: activations, weights, the bias row, the residual. -/
abbrev xblk (c : Dev nD) (t : Fin cfg0.N) : Vec F S256x512 .f32 := iblk m c 0 t
abbrev wblk (c : Dev nD) (t : Fin cfg0.N) : Vec F S1024x512 .f32 := iblk m c 1 t
abbrev bblk (c : Dev nD) (t : Fin cfg0.N) : Vec F S1x1024 .f32 := iblk m c 2 t
abbrev rblk (c : Dev nD) (t : Fin cfg0.N) : Vec F S256x1024 .f32 := iblk m c 3 t

/-- The scratch after point n. -/
def acc (c : Dev nD) : (n : ℕ) → n < cfg0.N → Vec F S256x1024 .f32
  | 0, h => k0_pay2 (xblk m c ⟨0, h⟩) (wblk m c ⟨0, h⟩) k0_pay1
  | n + 1, h =>
    if (n + 1) % 8 = 0 then k0_pay2 (xblk m c ⟨n + 1, h⟩) (wblk m c ⟨n + 1, h⟩) k0_pay1
    else k0_pay2 (xblk m c ⟨n + 1, h⟩) (wblk m c ⟨n + 1, h⟩) (acc c n (Nat.lt_of_succ_lt h))

theorem acc_zero (c : Dev nD) (h : 0 < cfg0.N) :
    acc m c 0 h = k0_pay2 (xblk m c ⟨0, h⟩) (wblk m c ⟨0, h⟩) k0_pay1 := rfl

theorem acc_first (c : Dev nD) (n : ℕ) (h : n + 1 < cfg0.N) (h0 : (n + 1) % 8 = 0) :
    acc m c (n + 1) h = k0_pay2 (xblk m c ⟨n + 1, h⟩) (wblk m c ⟨n + 1, h⟩) k0_pay1 := by
  show (if (n + 1) % 8 = 0 then _ else _) = _
  rw [if_pos h0]

theorem acc_next (c : Dev nD) (n : ℕ) (h : n + 1 < cfg0.N) (h0 : ¬(n + 1) % 8 = 0) :
    acc m c (n + 1) h = k0_pay2 (xblk m c ⟨n + 1, h⟩) (wblk m c ⟨n + 1, h⟩) (acc m c n (Nat.lt_of_succ_lt h)) := by
  show (if (n + 1) % 8 = 0 then _ else _) = _
  rw [if_neg h0]

/-- The frame's scratch contents after point n are `acc n`. -/
theorem scratch_eq (c : Dev nD) : ∀ (n : ℕ) (h : n < cfg0.N), (outsAt0 m c n h).2 = acc m c n h
  | 0, h => by
    have h0 : (⟨0, h⟩ : Fin cfg0.N).val % 8 = 0 := Nat.zero_mod _
    have h1 : ¬(⟨0, h⟩ : Fin cfg0.N).val % 8 = 7 := by dsimp only; omega
    rw [outsAt0_A m c ⟨0, h⟩ h0 h1]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (iblk m c 0 ⟨0, h⟩) (iblk m c 1 ⟨0, h⟩) (iblk m c 2 ⟨0, h⟩) (iblk m c 3 ⟨0, h⟩)
  | n + 1, h => by
    by_cases h0 : (n + 1) % 8 = 0
    · have h0' : (⟨n + 1, h⟩ : Fin cfg0.N).val % 8 = 0 := h0
      have h1 : ¬(⟨n + 1, h⟩ : Fin cfg0.N).val % 8 = 7 := by dsimp only; omega
      rw [outsAt0_A m c ⟨n + 1, h⟩ h0' h1, acc_first m c n h h0]
      dsimp only
      exact scratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩)
    · have h0' : ¬(⟨n + 1, h⟩ : Fin cfg0.N).val % 8 = 0 := h0
      by_cases h1 : (n + 1) % 8 = 7
      · have h1' : (⟨n + 1, h⟩ : Fin cfg0.N).val % 8 = 7 := h1
        rw [outsAt0_C m c ⟨n + 1, h⟩ h0' h1', acc_next m c n h h0]
        dsimp only
        refine (scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (outsAt0 m c n (Nat.lt_of_succ_lt h)).2).trans ?_
        rw [scratch_eq c n (Nat.lt_of_succ_lt h)]
      · have h1' : ¬(⟨n + 1, h⟩ : Fin cfg0.N).val % 8 = 7 := h1
        rw [outsAt0_B m c ⟨n + 1, h⟩ h0' h1', acc_next m c n h h0]
        dsimp only
        refine (scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (outsAt0 m c n (Nat.lt_of_succ_lt h)).2).trans ?_
        rw [scratch_eq c n (Nat.lt_of_succ_lt h)]

/-- At a last column step the output block is the scratch just computed plus the bias row plus the residual. -/
theorem out_eq (c : Dev nD) : ∀ (n : ℕ) (h : n < cfg0.N), n % 8 = 7 →
    (outsAt0 m c n h).1 = k0_pay3 (acc m c n h) (bblk m c ⟨n, h⟩) (rblk m c ⟨n, h⟩)
  | 0, h, h7 => by omega
  | n + 1, h, h7 => by
    have h0 : ¬(n + 1) % 8 = 0 := by omega
    have h0' : ¬(⟨n + 1, h⟩ : Fin cfg0.N).val % 8 = 0 := h0
    have h1' : (⟨n + 1, h⟩ : Fin cfg0.N).val % 8 = 7 := h7
    rw [outsAt0_C m c ⟨n + 1, h⟩ h0' h1', acc_next m c n h h0]
    dsimp only
    refine (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (outsAt0 m c n (Nat.lt_of_succ_lt h)).2).trans ?_
    rw [scratch_eq m c n (Nat.lt_of_succ_lt h)]

end Cert.KernelIdeal.Acc

end
-- ==== Proof.Blocks.lean ====
/-
  Where a point's input blocks sit in their arrays.

  Point t of the grid is row block t / 8 and column step t % 8. Its activation block is rows 256·(t/8) … of the
  flattened activations and columns 512·(t%8) …; its weight block is all 1024 rows of the weight and the same
  columns; its bias block is the whole bias row; its residual block, like its output block, is rows 256·(t/8) … of all
  1024 columns. A block's entry is therefore the array's entry at (block index × block size + the coordinate inside
  the block) on each axis. The block indices are the printed index maps, decided once over the 512 points.
-/
import proofs.«161715_j48318382080289_1_alg».proof.Proof.Acc
import Idealize.ShloMosaic.Lib.ValueIdx

set_option maxRecDepth 16384

noncomputable section

open Idealize.ShloMosaic Idealize.ShloMosaic.TcCoe Idealize.ShloMosaic.ValueIdx Idealize.SL.Sem

namespace Cert.KernelIdeal.Blocks

open Cert.KernelIdeal Cert.KernelIdeal.Gen Cert.KernelIdeal.Acc

variable {F : FTy → Type} [FloatOps F]
variable (m : (ℓ : Loc nD τ sig) → Buf (Elt F) ℓ)

/-- The block indices of the five windows at every point. -/
theorem idx_facts : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = 0 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- The activation block: row p, column j of it is row 256·i + p, column 512·k + j of the flattened activations. -/
theorem xblk_apply (c : Dev nD) (t : Fin cfg0.N) (i k : ℕ) (ht : t.val = 8 * i + k) (hk : k < 8)
    (p : Fin 256) (j : Fin 512) (row : Fin 16384) (col : Fin 4096)
    (hrow : row.val = 256 * i + p.val) (hcol : col.val = 512 * k + j.val) :
    xblk m c t (ix2 p j) = V m c main_v13 (ix2 row col) := by
  obtain ⟨e0, e1, -⟩ := idx_facts t
  unfold xblk iblk
  rw [View.read_apply]
  refine congrArg (V m c main_v13) (funext fun a => Fin.ext ?_)
  match a with
  | ⟨0, _⟩ => show win0_0.index t (0 : Fin 2) * 256 + 1 * p.val = row.val; rw [e0, hrow]; omega
  | ⟨1, _⟩ => show win0_0.index t (1 : Fin 2) * 512 + 1 * j.val = col.val; rw [e1, hcol]; omega

/-- The weight block: row q, column j of it is row q, column 512·k + j of the weight. -/
theorem wblk_apply (c : Dev nD) (t : Fin cfg0.N) (i k : ℕ) (ht : t.val = 8 * i + k) (hk : k < 8)
    (q : Fin 1024) (j : Fin 512) (col : Fin 4096) (hcol : col.val = 512 * k + j.val) :
    wblk m c t (ix2 q j) = V m c main_v12 (ix2 q col) := by
  obtain ⟨-, -, e0, e1, -⟩ := idx_facts t
  unfold wblk iblk
  rw [View.read_apply]
  refine congrArg (V m c main_v12) (funext fun a => Fin.ext ?_)
  match a with
  | ⟨0, _⟩ => show win0_1.index t (0 : Fin 2) * 1024 + 1 * q.val = q.val; rw [e0]; omega
  | ⟨1, _⟩ => show win0_1.index t (1 : Fin 2) * 512 + 1 * j.val = col.val; rw [e1, hcol]; omega

/-- The bias block is the bias row. -/
theorem bblk_apply (c : Dev nD) (t : Fin cfg0.N) (z : Fin 1) (q : Fin 1024) :
    bblk m c t (ix2 z q) = V m c main_v15 (ix2 z q) := by
  obtain ⟨-, -, -, -, e0, e1, -⟩ := idx_facts t
  unfold bblk iblk
  rw [View.read_apply]
  refine congrArg (V m c main_v15) (funext fun a => Fin.ext ?_)
  match a with
  | ⟨0, _⟩ => show win0_2.index t (0 : Fin 2) * 1 + 1 * z.val = z.val; rw [e0]; omega
  | ⟨1, _⟩ => show win0_2.index t (1 : Fin 2) * 1024 + 1 * q.val = q.val; rw [e1]; omega

/-- The residual block: row p, column q of it is row 256·i + p, column q of the flattened residual. -/
theorem rblk_apply (c : Dev nD) (t : Fin cfg0.N) (i k : ℕ) (ht : t.val = 8 * i + k) (hk : k < 8)
    (p : Fin 256) (q : Fin 1024) (row : Fin 16384) (hrow : row.val = 256 * i + p.val) :
    rblk m c t (ix2 p q) = V m c main_v14 (ix2 row q) := by
  obtain ⟨-, -, -, -, -, -, e0, e1, -⟩ := idx_facts t
  unfold rblk iblk
  rw [View.read_apply]
  refine congrArg (V m c main_v14) (funext fun a => Fin.ext ?_)
  match a with
  | ⟨0, _⟩ => show win0_3.index t (0 : Fin 2) * 256 + 1 * p.val = row.val; rw [e0, hrow]; omega
  | ⟨1, _⟩ => show win0_3.index t (1 : Fin 2) * 1024 + 1 * q.val = q.val; rw [e1]; omega

end Cert.KernelIdeal.Blocks

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.Spec.lean ====
/-
  The mathematics of the quantized linear layer with a residual, free of any program.

  For a matrix x of 16384 rows and 4096 columns, a weight w of 1024 rows and 4096 columns (each output channel one
  row), a bias row b and a residual r, the layer's entry (i, d) is

      (sum over k < 4096 of x(i, k) · w(d, k)) + b(d) + r(i, d).

  The sum over the 4096 columns can be taken eight blocks of 512 columns at a time: on the extended reals addition is
  commutative and associative (it is a commutative monoid: no finiteness is needed for regrouping), so adding the
  blocks' sums one after another, starting from zero, gives the whole sum. `partialDot … n` is the sum of the first n
  blocks; `partialDot_eight` says the eighth is the whole row product.
-/
import proofs.«161715_j48318382080289_1_alg».proof.Proof.LibBlockSum
import Idealize.ShloMosaic.Lib.ValueIdx
import Idealize.ShloMosaic.PureOps.Ideal

noncomputable section

open scoped BigOperators

namespace Cert.QuantLinear

open Idealize.ShloMosaic Idealize.ShloMosaic.ValueIdx

/-- The flattened activations, the quantized weight, the bias row, the flattened residual. -/
abbrev Acts := (⟨2, ![16384, 4096]⟩ : Shape).Idx → EReal
abbrev Wts := (⟨2, ![1024, 4096]⟩ : Shape).Idx → EReal
abbrev BiasRow := (⟨2, ![1, 1024]⟩ : Shape).Idx → EReal
abbrev Rows := (⟨2, ![16384, 1024]⟩ : Shape).Idx → EReal

/-- Column k's product in the dot of row r of x with row d of w; zero past the last column (so that it is a function
    of a natural number, which is what a block-by-block sum ranges over). -/
def term (x : Acts) (w : Wts) (r : Fin 16384) (d : Fin 1024) (k : ℕ) : EReal :=
  if h : k < 4096 then x (ix2 r ⟨k, h⟩) * w (ix2 d ⟨k, h⟩) else 0

theorem term_lt (x : Acts) (w : Wts) (r : Fin 16384) (d : Fin 1024) (k : ℕ) (h : k < 4096) :
    term x w r d k = x (ix2 r ⟨k, h⟩) * w (ix2 d ⟨k, h⟩) := dif_pos h

/-- The dot of row r of x with row d of w over the first n blocks of 512 columns. -/
def partialDot (x : Acts) (w : Wts) (r : Fin 16384) (d : Fin 1024) (n : ℕ) : EReal :=
  ∑ s ∈ Finset.range n, ∑ j : Fin 512, term x w r d (512 * s + j.val)

theorem partialDot_zero (x : Acts) (w : Wts) (r : Fin 16384) (d : Fin 1024) : partialDot x w r d 0 = 0 := by
  unfold partialDot
  exact Finset.sum_range_zero _

/-- One more block: the sum so far plus that block's 512 products. -/
theorem partialDot_succ (x : Acts) (w : Wts) (r : Fin 16384) (d : Fin 1024) (n : ℕ) :
    partialDot x w r d (n + 1) = partialDot x w r d n + ∑ j : Fin 512, term x w r d (512 * n + j.val) := by
  unfold partialDot
  exact Finset.sum_range_succ _ n

/-- All eight blocks: the whole row product. -/
theorem partialDot_eight (x : Acts) (w : Wts) (r : Fin 16384) (d : Fin 1024) :
    partialDot x w r d 8 = ∑ k : Fin 4096, x (ix2 r k) * w (ix2 d k) := by
  unfold partialDot
  rw [BlockSum.sum_blocks 512 8 (term x w r d)]
  exact Finset.sum_congr rfl fun k _ => term_lt x w r d k.val k.isLt

/-- The layer on the flattened rows: row product, plus the bias, plus the residual. -/
def rowsOut (x : Acts) (w : Wts) (b : BiasRow) (r : Rows) : Rows :=
  fun i => (∑ k : Fin 4096, x (ix2 (i 0) k) * w (ix2 (i 1) k)) + b (ix2 (0 : Fin 1) (i 1)) + r i

end Cert.QuantLinear

end
-- ==== Proof.LibMatmulRowRow.lean ====
/-
  A rows-by-rows product read at an entry (a general lemma: nothing here depends on a program).

  For a left factor l of shape [A, K] and a right factor r of shape [C, K], the dimension numbers "contract axis 1 of l
  with axis 1 of r, no batch axis" give a result of shape [A, C].  Into a zero accumulator, over the extended reals,
  its entry (p, q) is the sum over k < K of l (p, k) · r (q, k): the product of l with the transpose of r, the
  transpose never formed.  Any sizes A, K, C.  A printed record with lists [1], [1], [0], [0], [], [] over such shapes
  is `DotDims.transposedRhs A K C` by `rfl`.
-/
import Idealize.ShloMosaic.Lib.ValueIdx
import Idealize.ShloMosaic.PureOps.Ideal.Laws

noncomputable section

namespace Cert.Lib.MatmulRowRow

open Idealize.ShloMosaic Idealize.ShloMosaic.ValueIdx

variable {A K C : Nat}

/-- The left factor is read at the result's row … -/
theorem lhs0 (j : (⟨2, ![A, C]⟩ : Shape).Idx) (q : (DotDims.transposedRhs A K C).contr.Idx) :
    ((DotDims.transposedRhs A K C).lhsIdx j q 0).val = (j 0).val := by
  unfold DotDims.lhsIdx
  rw [dif_neg (show ¬(0 : Fin 2) ∈ (DotDims.transposedRhs A K C).lhsBatch from List.not_mem_nil),
    dif_pos (show (0 : Fin 2) ∈ (DotDims.transposedRhs A K C).lhsNonContracting from List.mem_singleton.mpr rfl)]
  rfl

/-- … and at the contraction coordinate as its column. -/
theorem lhs1 (j : (⟨2, ![A, C]⟩ : Shape).Idx) (q : (DotDims.transposedRhs A K C).contr.Idx) :
    ((DotDims.transposedRhs A K C).lhsIdx j q 1).val = (q ⟨0, Nat.one_pos⟩).val :=
  (DotDims.transposedRhs A K C).lhsIdx_val_of_single rfl j q

/-- The right factor is read at the row that is the result's column … -/
theorem rhs0 (j : (⟨2, ![A, C]⟩ : Shape).Idx) (q : (DotDims.transposedRhs A K C).contr.Idx) :
    ((DotDims.transposedRhs A K C).rhsIdx j q 0).val = (j 1).val := by
  unfold DotDims.rhsIdx
  rw [dif_neg (show ¬(0 : Fin 2) ∈ (DotDims.transposedRhs A K C).rhsBatch from List.not_mem_nil),
    dif_pos (show (0 : Fin 2) ∈ (DotDims.transposedRhs A K C).rhsNonContracting from List.mem_singleton.mpr rfl)]
  rfl

/-- … and at the contraction coordinate as its column. -/
theorem rhs1 (j : (⟨2, ![A, C]⟩ : Shape).Idx) (q : (DotDims.transposedRhs A K C).contr.Idx) :
    ((DotDims.transposedRhs A K C).rhsIdx j q 1).val = (q ⟨0, Nat.one_pos⟩).val :=
  (DotDims.transposedRhs A K C).rhsIdx_val_of_single rfl j q

/-- The contraction at entry (p, q) is the sum over the K products l (p, k) · r (q, k). -/
theorem contr_sum (l : (⟨2, ![A, K]⟩ : Shape).Idx → EReal) (r : (⟨2, ![C, K]⟩ : Shape).Idx → EReal)
    (p : Fin A) (q : Fin C) :
    ∑ s : (DotDims.transposedRhs A K C).contr.Idx,
        l ((DotDims.transposedRhs A K C).lhsIdx (ix2 p q) s) * r ((DotDims.transposedRhs A K C).rhsIdx (ix2 p q) s)
      = ∑ k : Fin K, l (ix2 p k) * r (ix2 q k) := by
  rw [← Equiv.sum_comp (contrEquiv1 (DotDims.transposedRhs A K C) K rfl rfl).symm]
  refine Finset.sum_congr rfl fun k _ => ?_
  have hk := contrEquiv1_symm_val (DotDims.transposedRhs A K C) K rfl rfl k
  have el : (DotDims.transposedRhs A K C).lhsIdx (ix2 p q)
      ((contrEquiv1 (DotDims.transposedRhs A K C) K rfl rfl).symm k) = ix2 p k := funext fun a => Fin.ext (by
    match a with
    | ⟨0, _⟩ => exact lhs0 _ _
    | ⟨1, _⟩ => exact (lhs1 _ _).trans hk)
  have er : (DotDims.transposedRhs A K C).rhsIdx (ix2 p q)
      ((contrEquiv1 (DotDims.transposedRhs A K C) K rfl rfl).symm k) = ix2 q k := funext fun a => Fin.ext (by
    match a with
    | ⟨0, _⟩ => exact rhs0 _ _
    | ⟨1, _⟩ => exact (rhs1 _ _).trans hk)
  rw [el, er]

/-- Entry (p, q) of the product into a zero accumulator. -/
theorem matmul_zero_apply {φ₁ φ₂ : FTy} (prec : Option ContractPrecision)
    (l : FVec Ideal ⟨2, ![A, K]⟩ φ₁) (r : FVec Ideal ⟨2, ![C, K]⟩ φ₂) (p : Fin A) (q : Fin C) :
    FloatOps.matmul (DotDims.transposedRhs A K C) prec l r (constant ⟨2, ![A, C]⟩ .f32 0x00000000#32) (ix2 p q)
      = ∑ k : Fin K, (l (ix2 p k) : EReal) * (r (ix2 q k) : EReal) := by
  rw [Ideal.matmul_constant_zero_apply]
  exact contr_sum l r p q

end Cert.Lib.MatmulRowRow

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.PayVal.lean ====
/-
  The body's three stored values read at one entry, over the extended reals.

  At the ideal values a change of float format is the identity and the matrix unit's product into a zero accumulator is
  the plain sum of products, so at row p, column q of the 256 by 1024 block:

    the cleared scratch            is 0,
    the update  a + x · wᵀ         is a(p, q) + sum over k < 512 of x(p, k) · w(q, k),
    the finish  a + bias + resid   is a(p, q) + b(0, q) + r(p, q).

  `step_apply` puts the update in the form the induction over the column steps uses: if the block x holds columns
  512·kk … 512·kk + 511 of row `row` of the activations, the block w the same columns of the weight, and a(p, q) is
  the row product over the first kk column blocks, then the update's entry is the row product over kk + 1 of them.
-/
import proofs.«161715_j48318382080289_1_alg».proof.Proof.Gen.KernelIdeal.Skeleton
import proofs.«161715_j48318382080289_1_alg».proof.Proof.Spec
import proofs.«161715_j48318382080289_1_alg».proof.Proof.LibMatmulRowRow
import proofs.«161715_j48318382080289_1_alg».proof.Proof.LibColToRow
import Idealize.ShloMosaic.Lib.Pipeline.Value
import Idealize.ShloMosaic.PureOps.Ideal.Laws

noncomputable section

open scoped BigOperators
open Idealize.ShloMosaic Idealize.ShloMosaic.ValueIdx

namespace Cert.KernelIdeal.PayVal

open Cert.KernelIdeal Cert.KernelIdeal.Gen Cert.QuantLinear

/-- The cleared scratch holds zero everywhere. -/
theorem pay1_apply (p : Fin 256) (q : Fin 1024) : (k0_pay1 (F := Ideal) (ix2 p q) : EReal) = 0 := by
  unfold k0_pay1
  rw [shapeCast_self]
  exact Ideal.ofBits_zero_f32

/-- The update at an entry: the accumulator's entry plus the 512 products of the two blocks' rows. -/
theorem pay2_apply (x : Vec Ideal S256x512 .f32) (w : Vec Ideal S1024x512 .f32) (a : Vec Ideal S256x1024 .f32)
    (p : Fin 256) (q : Fin 1024) :
    (k0_pay2 x w a (ix2 p q) : EReal) = a (ix2 p q) + ∑ k : Fin 512, (x (ix2 p k) : EReal) * (w (ix2 q k) : EReal) := by
  unfold k0_pay2
  rw [shapeCast_self, shapeCast_self, shapeCast_self]
  show (a (ix2 p q) : EReal) + FloatOps.matmul (F := Ideal) (DotDims.transposedRhs 256 512 1024) none
      (truncf (F := Ideal) .bf16 x bitsLt_bf16_f32) (truncf (F := Ideal) .bf16 w bitsLt_bf16_f32)
      (constant (F := Ideal) ⟨2, ![256, 1024]⟩ .f32 0x00000000#32) (ix2 p q) = _
  rw [Cert.Lib.MatmulRowRow.matmul_zero_apply]
  rfl

/-- The finish at an entry: the scratch's entry, plus the bias row's entry of that column, plus the residual's. -/
theorem pay3_apply (a : Vec Ideal S256x1024 .f32) (b : Vec Ideal S1x1024 .f32) (r : Vec Ideal S256x1024 .f32)
    (p : Fin 256) (q : Fin 1024) :
    (k0_pay3 a b r (ix2 p q) : EReal) = a (ix2 p q) + b (ix2 (0 : Fin 1) q) + r (ix2 p q) := by
  unfold k0_pay3
  rw [shapeCast_self, shapeCast_self]
  show (a (ix2 p q) : EReal) + broadcastTo ⟨2, ![256, 1024]⟩ b broadcasts_S1x1024_S256x1024 (ix2 p q) + r (ix2 p q) = _
  rw [Cert.Lib.ColToRow.bcastRowMat_apply]

/-- One column step of the row product. -/
theorem step_apply (X : Acts) (W : Wts) (x : Vec Ideal S256x512 .f32) (w : Vec Ideal S1024x512 .f32)
    (a : Vec Ideal S256x1024 .f32) (row : Fin 16384) (p : Fin 256) (q : Fin 1024) (kk : ℕ) (hk : kk < 8)
    (hx : ∀ j : Fin 512, (x (ix2 p j) : EReal) = X (ix2 row ⟨512 * kk + j.val, by have := j.isLt; omega⟩))
    (hw : ∀ j : Fin 512, (w (ix2 q j) : EReal) = W (ix2 q ⟨512 * kk + j.val, by have := j.isLt; omega⟩))
    (ha : (a (ix2 p q) : EReal) = partialDot X W row q kk) :
    (k0_pay2 x w a (ix2 p q) : EReal) = partialDot X W row q (kk + 1) := by
  rw [pay2_apply, partialDot_succ, ha]
  refine congrArg (partialDot X W row q kk + ·) (Finset.sum_congr rfl fun j _ => ?_)
  rw [hx j, hw j, term_lt X W row q (512 * kk + j.val) (by have := j.isLt; omega)]

end Cert.KernelIdeal.PayVal

end
-- ==== Proof.AccVal.lean ====
/-
  The scratch and the output block at an entry, over the extended reals.

  After point n = 8·i + k (row block i, column step k) the scratch's entry (p, q) is the product of row 256·i + p of
  the flattened activations with row q of the quantized weight taken over the first k + 1 column blocks: at k = 0 it
  is the first block's 512 products added to zero, and each later step adds the next block's. At k = 7 all eight
  blocks are in, the row product is whole, and the output block's entry is that product plus the bias entry of
  column q plus the residual's entry: the layer's value at row 256·i + p, column q.
-/
import proofs.«161715_j48318382080289_1_alg».proof.Proof.Blocks
import proofs.«161715_j48318382080289_1_alg».proof.Proof.PayVal

set_option maxRecDepth 16384

noncomputable section

open scoped BigOperators
open Idealize.ShloMosaic Idealize.ShloMosaic.TcCoe Idealize.ShloMosaic.ValueIdx Idealize.SL.Sem

namespace Cert.KernelIdeal.AccVal

open Cert.KernelIdeal Cert.KernelIdeal.Gen Cert.KernelIdeal.Acc Cert.KernelIdeal.Blocks Cert.KernelIdeal.PayVal
open Cert.QuantLinear

variable (m : (ℓ : Loc nD τ sig) → Buf (Elt Ideal) ℓ)

/-- The kernel's four operand arrays as the region finds them: flattened activations, quantized weight, bias row,
    flattened residual. -/
abbrev xarr (c : Dev nD) : Acts := V m c main_v13
abbrev warr (c : Dev nD) : Wts := V m c main_v12
abbrev barr (c : Dev nD) : BiasRow := V m c main_v15
abbrev rarr (c : Dev nD) : Rows := V m c main_v14

/-- The scratch after point n = 8·i + k, at (p, q): the row product over the first k + 1 column blocks. -/
theorem acc_apply (c : Dev nD) (p : Fin 256) (q : Fin 1024) :
    ∀ (n : ℕ) (h : n < cfg0.N) (i k : ℕ), n = 8 * i + k → k < 8 → ∀ (row : Fin 16384), row.val = 256 * i + p.val →
      (acc m c n h (ix2 p q) : EReal) = partialDot (xarr m c) (warr m c) row q (k + 1)
  | 0, h, i, k, hn, hk, row, hrow => by
    obtain rfl : i = 0 := by omega
    obtain rfl : k = 0 := by omega
    rw [acc_zero]
    refine step_apply (xarr m c) (warr m c) _ _ _ row p q 0 (by omega) (fun j => ?_) (fun j => ?_) ?_
    · exact xblk_apply m c ⟨0, h⟩ 0 0 rfl (by omega) p j row _ hrow rfl
    · exact wblk_apply m c ⟨0, h⟩ 0 0 rfl (by omega) q j _ rfl
    · rw [pay1_apply, partialDot_zero]
  | n + 1, h, i, k, hn, hk, row, hrow => by
    by_cases h0 : (n + 1) % 8 = 0
    · obtain rfl : k = 0 := by omega
      rw [acc_first m c n h h0]
      refine step_apply (xarr m c) (warr m c) _ _ _ row p q 0 (by omega) (fun j => ?_) (fun j => ?_) ?_
      · exact xblk_apply m c ⟨n + 1, h⟩ i 0 hn (by omega) p j row _ hrow rfl
      · exact wblk_apply m c ⟨n + 1, h⟩ i 0 hn (by omega) q j _ rfl
      · rw [pay1_apply, partialDot_zero]
    · obtain ⟨k', rfl⟩ : ∃ k', k = k' + 1 := ⟨k - 1, by omega⟩
      rw [acc_next m c n h h0]
      refine step_apply (xarr m c) (warr m c) _ _ _ row p q (k' + 1) hk (fun j => ?_) (fun j => ?_) ?_
      · exact xblk_apply m c ⟨n + 1, h⟩ i (k' + 1) hn hk p j row _ hrow rfl
      · exact wblk_apply m c ⟨n + 1, h⟩ i (k' + 1) hn hk q j _ rfl
      · exact acc_apply c p q n (Nat.lt_of_succ_lt h) i k' (by omega) (by omega) row hrow

/-- The output block after a last column step n = 8·i + 7, at (p, q): the layer's value at row 256·i + p, column q. -/
theorem out_apply (c : Dev nD) (n : ℕ) (h : n < cfg0.N) (i : ℕ) (hn : n = 8 * i + 7) (p : Fin 256) (q : Fin 1024)
    (row : Fin 16384) (hrow : row.val = 256 * i + p.val) :
    ((outsAt0 m c n h).1 (ix2 p q) : EReal) = rowsOut (xarr m c) (warr m c) (barr m c) (rarr m c) (ix2 row q) := by
  rw [out_eq m c n h (by omega), pay3_apply, acc_apply m c p q n h i 7 hn (by omega) row hrow, partialDot_eight,
    bblk_apply m c ⟨n, h⟩ 0 q, rblk_apply m c ⟨n, h⟩ i 7 hn (by omega) p q row hrow]
  rfl

end Cert.KernelIdeal.AccVal

end
-- ==== Proof.LibTypedRef.lean ====
/-
  Typed references: the transport between a value's type and its buffer's.
-/
import Idealize.ShloMosaic.Lib.StableHlo

namespace Cert.LibTypedRef

open Idealize.ShloMosaic Idealize.ShloMosaic.StableHlo

variable {sig : RefSig} {Val : EltTy → Type} {T : BufTy}

/-- A typed reference moves contents of its value's type `T` into its buffer's type and back along one equation of
    types; there and back is the identity.  (An operation of a module-local function, stated over typed references,
    writes its result through `toBuf` and the next one reads it through `ofBuf`: composed, the pair disappears, for any
    signature, value types and reference.) -/
theorem ofBuf_toBuf (x : TRef sig T) (v : T.Contents Val) : x.ofBuf (x.toBuf v) = v := by
  obtain ⟨r, rfl, _, _⟩ := x
  rfl

/-- And back and there. -/
theorem toBuf_ofBuf (x : TRef sig T) (v : x.ref.ty.Contents Val) : x.toBuf (x.ofBuf v) = v := by
  obtain ⟨r, rfl, _, _⟩ := x
  rfl

end Cert.LibTypedRef
-- ==== Proof.HostSide.lean ====
/-
  The host operations around the kernel.

  Before the kernel the host quantizes the weight and lays the other arguments out flat: the activations
  [16, 1024, 4096] become 16384 rows of 4096, the residual [16, 1024, 1024] becomes 16384 rows of 1024, the bias becomes
  one row. After the kernel the host lays the 16384 result rows out again as [16, 1024, 1024].

  The quantized weight `wq w`: each output channel (row) has the scale s = max(max over the row of |w|, 1e-8) / 127;
  the entry is clamp(round(w / s), -128, 127) · s. It is the same text in the reference, and nothing in the proof looks
  inside it: both programs multiply the activations by the same matrix, whatever its entries are.
-/
import proofs.«161715_j48318382080289_1_alg».proof.Proof.Gen.KernelIdeal.Frame
import proofs.«161715_j48318382080289_1_alg».proof.Proof.LibTypedRef
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.HostSide

open Cert.KernelIdeal Cert.KernelIdeal.Gen

variable {F : FTy → Type} [FloatOps F]

/-- The scale of each output channel, as a column: max(max |w| over the row, 1e-8) / 127. -/
def scale (w : Vec F S1024x4096 .f32) : Vec F S1024x1 .f32 :=
  Host.divf (maximumf (broadcastInDim S1024x1 ![0] bcast_S1024_S1024x1_0 (Host.reduce FloatOps.maximumf (Host.absf w) (constant (F := F) S_ .f32 0xFF800000#32) reducesTo_S1024x4096_S1024_d1 h_S_)) (broadcastInDim S1024x1 ![] bcast_S_S1024x1 (constant (F := F) S_ .f32 0x322BCC77#32))) (broadcastInDim S1024x1 ![] bcast_S_S1024x1 (constant (F := F) S_ .f32 0x42FE0000#32))

/-- The quantized weight: clamp(round(w / scale), -128, 127) · scale. -/
def wq (w : Vec F S1024x4096 .f32) : Vec F S1024x4096 .f32 :=
  mulf (minimumf (broadcastInDim S1024x4096 ![] bcast_S_S1024x4096 (sitofp (F := F) .f32 (constantI S_ 32 127#32))) (maximumf (broadcastInDim S1024x4096 ![] bcast_S_S1024x4096 (sitofp (F := F) .f32 (constantI S_ 32 4294967168#32))) (Host.roundeven (Host.divf w (broadcastInDim S1024x4096 ![0, 1] bcast_S1024x1_S1024x4096_0_1 (scale w)))))) (broadcastInDim S1024x4096 ![0, 1] bcast_S1024x1_S1024x4096_0_1 (scale w))

variable (m : (ℓ : Loc nD τ sig) → Buf (Elt F) ℓ)

/-- The kernel's first operand is the activations laid out as 16384 rows. -/
theorem V_v13 (c : Dev nD) : (V m c main_v13 : S16384x4096.Idx → F .f32)
    = shapeCast S16384x4096 (m ((c : Thread nD τ).loc main_arg0)) shapeCasts_S16x1024x4096_S16384x4096 := by
  dsimp only [V, V0]
  simp only [hostOps0, hostOps0_1, hostOps0_2, hostOps0_3, hostOps0_4, List.flatten_cons, List.flatten_nil, List.append_nil,
    List.cons_append, List.nil_append]
  after_results
  rfl

/-- Its fourth operand is the residual laid out as 16384 rows. -/
theorem V_v14 (c : Dev nD) : (V m c main_v14 : S16384x1024.Idx → F .f32)
    = shapeCast S16384x1024 (m ((c : Thread nD τ).loc main_arg1)) shapeCasts_S16x1024x1024_S16384x1024 := by
  dsimp only [V, V0]
  simp only [hostOps0, hostOps0_1, hostOps0_2, hostOps0_3, hostOps0_4, List.flatten_cons, List.flatten_nil, List.append_nil,
    List.cons_append, List.nil_append]
  after_results
  rfl

/-- Its third operand is the bias as one row. -/
theorem V_v15 (c : Dev nD) : (V m c main_v15 : S1x1024.Idx → F .f32)
    = shapeCast S1x1024 (m ((c : Thread nD τ).loc main_arg3)) shapeCasts_S1024_S1x1024 := by
  dsimp only [V, V0]
  simp only [hostOps0, hostOps0_1, hostOps0_2, hostOps0_3, hostOps0_4, List.flatten_cons, List.flatten_nil, List.append_nil,
    List.cons_append, List.nil_append]
  after_results
  rfl

/-- Its second operand is the quantized weight. -/
theorem V_v12 (c : Dev nD) : (V m c main_v12 : S1024x4096.Idx → F .f32) = wq (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results
  simp only [Cert.LibTypedRef.ofBuf_toBuf]
  rfl

/-- The program's result is the kernel's output array laid out as [16, 1024, 1024]. -/
theorem tail_v17 (c : Dev nD) :
    (Pipeline.afterTail₀ cfgs (dats m) 0 (V0 m) [hostOps1] c main_v17 : S16x1024x1024.Idx → F .f32)
      = shapeCast S16x1024x1024 ((dats m 0 c).arrAt 4 cfg0.N) shapeCasts_S16384x1024_S16x1024x1024 := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16)
      = (dats m 0 c).arrAt 4 cfg0.N := Pipeline.withArrays_arr spec0 launch0.win.arr_inj c _ _ 4
  funext i
  show shapeCast S16x1024x1024 (Pipeline.withArrays (cfgs 0).spec c (V0 m c) (fun w => (dats m 0 c).arrAt w (cfgs 0).N) (Proc.devRef .tc main_v16)) shapeCasts_S16384x1024_S16x1024x1024 i = _
  rw [e]

end Cert.KernelIdeal.HostSide

end
-- ==== Proof.Final.lean ====
/-
  From the blocks to the whole result.

  The output array has 16384 rows of 1024 entries, written back one block of 256 rows at a time, at the last column
  step of each row block: point 8·i + 7 writes rows 256·i … 256·i + 255. What it writes is the layer's value on those
  rows (the scratch then holds the whole row products), so each written block is the restriction of ONE function of
  the whole arrays, `layerRows`, and the 64 written blocks cover every row: row r lies in the block written at point
  8·(r / 256) + 7. Hence the array ends holding `layerRows` everywhere. The host then lays those rows out again as
  [16, 1024, 1024], and nothing the program does touches its four arguments.
-/
import proofs.«161715_j48318382080289_1_alg».proof.Proof.AccVal
import proofs.«161715_j48318382080289_1_alg».proof.Proof.HostSide
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Final

open Cert.KernelIdeal Cert.KernelIdeal.Gen Cert.KernelIdeal.Acc Cert.KernelIdeal.Blocks Cert.KernelIdeal.AccVal
open Cert.KernelIdeal.HostSide Cert.QuantLinear

variable (m : (ℓ : Loc nD τ sig) → Buf (Elt Ideal) ℓ) (ρ : Dev nD → PrngReg)

/-- The layer on the flattened rows, of the arrays the kernel is given. -/
abbrev layerRows (c : Dev nD) : Rows := rowsOut (xarr m c) (warr m c) (barr m c) (rarr m c)

/-- What a last column step writes back is its 256 rows of `layerRows`. -/
theorem flushed_eq (c : Dev nD) (t : Fin cfg0.N) (hf : (cfg0.win 4).flush t = true) :
    (dats m 0 c).flushed 4 t = ((cfg0.win 4).blk t).view.read (Elt Ideal) (layerRows m c) := by
  have h7 : t.val % 8 = 7 := (flush0_4 t).mp hf
  have hN : t.val < 512 := lt_of_lt_of_eq t.isLt (show cfg0.N = 512 from N_0)
  obtain ⟨-, -, -, -, -, -, -, -, e0, e1⟩ := idx_facts t
  show (cfg0.win 4).cut (grid0.coords t) ((dats m 0 c).after 4 t) = _
  rw [after0_4]
  funext y
  have hy0 : (y 0).val < 256 := (y 0).isLt
  have hy1 : (y 1).val < 1024 := (y 1).isLt
  have hx : (cfg0.win 4).xinj (grid0.coords t) y = ix2 (⟨(y 0).val, hy0⟩ : Fin 256) (⟨(y 1).val, hy1⟩ : Fin 1024) :=
    funext fun a => match a with
      | ⟨0, _⟩ => rfl
      | ⟨1, _⟩ => rfl
  show (outsAt0 m c t.val t.isLt).1 ((cfg0.win 4).xinj (grid0.coords t) y) = _
  rw [hx, View.read_apply]
  refine (out_apply m c t.val t.isLt (t.val / 8) (by omega) ⟨(y 0).val, hy0⟩ ⟨(y 1).val, hy1⟩
    ⟨256 * (t.val / 8) + (y 0).val, by omega⟩ rfl).trans ?_
  refine congrArg (layerRows m c) (funext fun a => Fin.ext ?_)
  match a with
  | ⟨0, _⟩ => show 256 * (t.val / 8) + (y 0).val = win0_4.index t (0 : Fin 2) * 256 + 1 * (y 0).val; rw [e0]; omega
  | ⟨1, _⟩ => show (y 1).val = win0_4.index t (1 : Fin 2) * 1024 + 1 * (y 1).val; rw [e1]; omega

/-- An entry of the output array is in point t's block iff each coordinate is in the block's range. -/
theorem mem_blk (t : Fin cfg0.N) (i : S16384x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v16).slice (win0_4.rect t)).set ↔ _
  rw [View.set_slice_whole, Rect.mem_set_unit]
  exact Iff.rfl

/-- Every row is written back by the last column step of its row block. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 512 := N_0
  refine ⟨⟨8 * ((i 0).val / 256) + 7, by omega⟩, (flush0_4 _).mpr (by dsimp only; omega), ?_⟩
  obtain ⟨-, -, -, -, -, -, -, -, e0, e1⟩ := idx_facts ⟨8 * ((i 0).val / 256) + 7, by omega⟩
  rw [mem_blk]
  intro a
  match a with
  | ⟨0, _⟩ =>
    show win0_4.index _ (0 : Fin 2) * 256 ≤ (i 0).val ∧ (i 0).val < win0_4.index _ (0 : Fin 2) * 256 + 256
    rw [e0]; dsimp only; omega
  | ⟨1, _⟩ =>
    show win0_4.index _ (1 : Fin 2) * 1024 ≤ (i 1).val ∧ (i 1).val < win0_4.index _ (1 : Fin 2) * 1024 + 1024
    rw [e1]; omega

/-- The output array after the run. -/
theorem final_rows (c : Dev nD) : (dats m 0 c).arrAt 4 cfg0.N = layerRows m c :=
  (dats m 0 c).arrAt_eq_of_cover 4 (layerRows m c) (flushed_eq m c) (covered)

/-- The program's result, as the host lays the rows out. -/
abbrev result (c : Dev nD) : Buf (Elt Ideal) ((c : Thread nD τ).loc main_v17) :=
  shapeCast S16x1024x1024 (layerRows m c) shapeCasts_S16384x1024_S16x1024x1024

/-- The run, read: the result at the laid-out layer rows, the four arguments unchanged. -/
theorem run : θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v17 (Pipeline.mem_restRefs_of main_v17 (by decide) (by decide))).trans
        ((tail_v17 m c).trans (by rw [final_rows m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.Layer.lean ====
/-
  The layer on the arguments as given: activations [16, 1024, 4096], residual [16, 1024, 1024], a weight matrix of
  1024 rows of 4096, a bias of 1024 entries. Entry (b, s, d) of the result is

      (sum over k < 4096 of act(b, s, k) · w(d, k)) + bias(d) + resid(b, s, d).

  Both programs compute this function of the same four arrays, the weight being the quantized one.
-/
import proofs.«161715_j48318382080289_1_alg».proof.Proof.Spec

noncomputable section

open scoped BigOperators

namespace Cert.QuantLinear

open Idealize.ShloMosaic Idealize.ShloMosaic.ValueIdx

abbrev Acts3 := (⟨3, ![16, 1024, 4096]⟩ : Shape).Idx → EReal
abbrev Out3 := (⟨3, ![16, 1024, 1024]⟩ : Shape).Idx → EReal
abbrev Bias := (⟨1, ![1024]⟩ : Shape).Idx → EReal

/-- The layer, entry by entry. -/
def layer (act : Acts3) (resid : Out3) (w : Wts) (bias : Bias) : Out3 :=
  fun i => (∑ k : Fin 4096, act (ix3 (i 0) (i 1) k) * w (ix2 (i 2) k)) + bias (ix1 (i 2)) + resid i

theorem layer_apply (act : Acts3) (resid : Out3) (w : Wts) (bias : Bias) (b : Fin 16) (s : Fin 1024) (d : Fin 1024) :
    layer act resid w bias (ix3 b s d)
      = (∑ k : Fin 4096, act (ix3 b s k) * w (ix2 d k)) + bias (ix1 d) + resid (ix3 b s d) := rfl

end Cert.QuantLinear

end
-- ==== Proof.LibMergeRows.lean ====
/-
  Two leading axes merged into one, and one leading axis split into two, read at an entry (a general lemma: nothing
  here depends on a program).

  An array [A, B, C] and an array [A·B, C] hold the same entries in the same row-major order: entry (a, b, c) of the
  first sits where entry (a·B + b, c) of the second does. So a shape cast from one to the other, in either
  direction, moves no entry: it only renames (a, b) as the row a·B + b. Any sizes A, B, C; the merged extent is a
  parameter N with the row r given together with the equation r = a·B + b, so that a literal extent (16384 for
  16·1024) is met without arithmetic on types.
-/
import Idealize.ShloMosaic.Lib.ValueIdx
import Idealize.ShloMosaic.Lib.Pipeline.Value

noncomputable section

namespace Cert.Lib.MergeRows

open Idealize.ShloMosaic Idealize.ShloMosaic.ValueIdx

/-- [A, B, C] viewed as [N, C]: the entry at row a·B + b, column c, is the entry (a, b, c). -/
theorem merge_apply {α : Type} {A B C N : Nat} (x : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ x h (ix2 r c) = x (ix3 a b c) := by
  refine shapeCast_apply x h (ix2 r c) (ix3 a b c) ?_
  rw [Shape.rowMajor_val_three, Shape.rowMajor_val_two]
  show (a.val * B + b.val) * C + c.val = r.val * C + c.val
  rw [hr]

/-- [N, C] viewed as [A, B, C]: the entry (a, b, c) is the entry at row a·B + b, column c. -/
theorem split_apply {α : Type} {A B C N : Nat} (x : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ x h (ix3 a b c) = x (ix2 r c) := by
  refine shapeCast_apply x h (ix3 a b c) (ix2 r c) ?_
  rw [Shape.rowMajor_val_three, Shape.rowMajor_val_two]
  show r.val * C + c.val = (a.val * B + b.val) * C + c.val
  rw [hr]

end Cert.Lib.MergeRows

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KernelBridge.lean ====
/-
  The kernel's result is the layer of its arguments.

  The kernel works on rows: row r = 1024·b + s of the flattened activations is the activations' (b, s, ·), the same row
  of the flattened residual is the residual's (b, s, ·), the one bias row holds the bias, and the weight it is given is
  the quantized weight. So the layer's value at row 1024·b + s, column d, laid out again as entry (b, s, d), is the
  layer's entry (b, s, d) of the arguments as given.
-/
import proofs.«161715_j48318382080289_1_alg».proof.Proof.Final
import proofs.«161715_j48318382080289_1_alg».proof.Proof.Layer
import proofs.«161715_j48318382080289_1_alg».proof.Proof.LibMergeRows
import proofs.«161715_j48318382080289_1_alg».proof.Proof.LibLayout

set_option maxRecDepth 16384

noncomputable section

open scoped BigOperators
open Idealize.ShloMosaic Idealize.ShloMosaic.TcCoe Idealize.ShloMosaic.ValueIdx Idealize.SL.Sem

namespace Cert.KernelIdeal.Bridge

open Cert.KernelIdeal Cert.KernelIdeal.Gen Cert.KernelIdeal.AccVal Cert.KernelIdeal.HostSide Cert.KernelIdeal.Final
open Cert.QuantLinear

variable (m : (ℓ : Loc nD τ sig) → Buf (Elt Ideal) ℓ)

/-- The kernel's result array, entry by entry, is the layer of the four arguments with the quantized weight. -/
theorem result_eq (c : Dev nD) :
    result m c = layer (m ((c : Thread nD τ).loc main_arg0)) (m ((c : Thread nD τ).loc main_arg1))
      (wq (m ((c : Thread nD τ).loc main_arg2))) (m ((c : Thread nD τ).loc main_arg3)) := by
  funext i
  obtain ⟨b, s, d, rfl⟩ : ∃ (b : Fin 16) (s : Fin 1024) (d : Fin 1024), i = ix3 b s d := ⟨i 0, i 1, i 2, eq_ix3 i⟩
  have hr : b.val * 1024 + s.val < 16384 := by have := b.isLt; have := s.isLt; omega
  have ex : xarr m c = shapeCast S16384x4096 (m ((c : Thread nD τ).loc main_arg0)) shapeCasts_S16x1024x4096_S16384x4096 := V_v13 m c
  have ew : warr m c = wq (m ((c : Thread nD τ).loc main_arg2)) := V_v12 m c
  have eb : barr m c = shapeCast S1x1024 (m ((c : Thread nD τ).loc main_arg3)) shapeCasts_S1024_S1x1024 := V_v15 m c
  have er : rarr m c = shapeCast S16384x1024 (m ((c : Thread nD τ).loc main_arg1)) shapeCasts_S16x1024x1024_S16384x1024 := V_v14 m c
  rw [layer_apply]
  show shapeCast S16x1024x1024 (layerRows m c) shapeCasts_S16384x1024_S16x1024x1024 (ix3 b s d) = _
  rw [Cert.Lib.MergeRows.split_apply (A := 16) (B := 1024) (C := 1024) (N := 16384) (layerRows m c)
    shapeCasts_S16384x1024_S16x1024x1024 b s d ⟨b.val * 1024 + s.val, hr⟩ rfl]
  show (∑ k : Fin 4096, xarr m c (ix2 ⟨b.val * 1024 + s.val, hr⟩ k) * warr m c (ix2 d k)) + barr m c (ix2 (0 : Fin 1) d)
      + rarr m c (ix2 ⟨b.val * 1024 + s.val, hr⟩ d) = _
  rw [ex, ew, eb, er,
    Cert.Lib.MergeRows.merge_apply (A := 16) (B := 1024) (C := 1024) (N := 16384) (m ((c : Thread nD τ).loc main_arg1))
      shapeCasts_S16x1024x1024_S16384x1024 b s d ⟨b.val * 1024 + s.val, hr⟩ rfl,
    Cert.Lib.Layout.rowCast_apply (B := 1024) (m ((c : Thread nD τ).loc main_arg3)) shapeCasts_S1024_S1x1024 0 d]
  refine congrArg (· + _ + _) (Finset.sum_congr rfl fun k _ => ?_)
  rw [Cert.Lib.MergeRows.merge_apply (A := 16) (B := 1024) (C := 4096) (N := 16384) (m ((c : Thread nD τ).loc main_arg0))
      shapeCasts_S16x1024x4096_S16384x4096 b s k ⟨b.val * 1024 + s.val, hr⟩ rfl]

end Cert.KernelIdeal.Bridge

end
-- ==== Proof.RefBridge.lean ====
/-
  The reference's result is the layer of its arguments.

  The reference contracts the activations' last axis with the weight's last axis (the einsum 'bsf,df->bsd'), adds the
  bias along the last axis and then the residual: read at entry (b, s, d) stage by stage, that is the layer's entry,
  with the weight the quantized one (the stage before the contraction, which is not opened).
-/
import proofs.«161715_j48318382080289_1_alg».proof.Proof.Gen.ReferenceIdeal.Read
import proofs.«161715_j48318382080289_1_alg».proof.Proof.Layer

noncomputable section

open scoped BigOperators
open Idealize.ShloMosaic Idealize.ShloMosaic.TcCoe Idealize.ShloMosaic.ValueIdx Idealize.SL.Sem

namespace Cert.ReferenceIdeal.Bridge

open Cert.ReferenceIdeal Cert.ReferenceIdeal.Gen Cert.ReferenceIdeal.Read Cert.QuantLinear

/-- The contraction's left index at entry (b, s, d), term k: (b, s, k). -/
theorem lidx_eq (b : Fin 16) (s : Fin 1024) (d : Fin 1024) (k : Fin 4096) : lidx_main_v13 (ix3 b s d) k = ix3 b s k :=
  funext fun a => Fin.ext (by match a with | ⟨0, _⟩ => rfl | ⟨1, _⟩ => rfl | ⟨2, _⟩ => rfl)

/-- Its right index: (d, k). -/
theorem ridx_eq (b : Fin 16) (s : Fin 1024) (d : Fin 1024) (k : Fin 4096) : ridx_main_v13 (ix3 b s d) k = ix2 d k :=
  funext fun a => Fin.ext (by match a with | ⟨0, _⟩ => rfl | ⟨1, _⟩ => rfl)

/-- The bias, broadcast twice, is read at its entry d. -/
theorem bidx_eq (b : Fin 16) (s : Fin 1024) (d : Fin 1024) : idx_main_v14 (idx_main_v15 (ix3 b s d)) = ix1 d :=
  funext fun a => Fin.ext (by match a with | ⟨0, _⟩ => rfl)

/-- The reference's last stage is the layer, its weight the stage that quantizes the weight argument. -/
theorem result_eq (x0 : (⟨S16x1024x4096, .f32⟩ : BufTy).Contents (Elt Ideal)) (x1 : (⟨S16x1024x1024, .f32⟩ : BufTy).Contents (Elt Ideal))
    (x2 : (⟨S1024x4096, .f32⟩ : BufTy).Contents (Elt Ideal)) (x3 : (⟨S1024, .f32⟩ : BufTy).Contents (Elt Ideal)) :
    val_main_v17 (F := Ideal) x0 x1 x2 x3 = layer x0 x1 (val_main_v12 (F := Ideal) x2) x3 := by
  funext i
  obtain ⟨b, s, d, rfl⟩ : ∃ (b : Fin 16) (s : Fin 1024) (d : Fin 1024), i = ix3 b s d := ⟨i 0, i 1, i 2, eq_ix3 i⟩
  rw [layer_apply, val_main_v17_apply, val_main_v16_apply, val_main_v13_apply, val_main_v15_apply, val_main_v14_apply, bidx_eq]
  simp only [lidx_eq, ridx_eq, Ideal.addf_def]

end Cert.ReferenceIdeal.Bridge

end
-- ==== Proof.lean ====
/-
  A linear layer with a per-channel quantized weight, a bias and a residual: the Pallas kernel against its jnp reference.

  Both programs first quantize the weight W [1024, 4096] the same way (per output channel: scale = max(max |W|, 1e-8) / 127,
  entries clamp(round(W / scale), -128, 127) · scale) and then compute, for activations x [16, 1024, 4096], bias b [1024]
  and residual r [16, 1024, 1024],

      out(i, s, d) = (sum over k < 4096 of x(i, s, k) · Wq(d, k)) + b(d) + r(i, s, d).

  The reference does it with one contraction over all 4096 columns. The kernel flattens (i, s) to 16384 rows, walks 64
  blocks of 256 rows, and for each adds up the contraction eight blocks of 512 columns at a time in a scratch block that
  starts from zero, writing scratch + b + r at the eighth step; the host then restores the [16, 1024, 1024] layout. Over
  the extended reals a change of float format is the identity and addition is commutative and associative, so the eight
  partial sums added in order are the whole sum and the two results are equal entry by entry; the precondition (finite
  inputs) is not used for that. The kernel's idealization rewrote nothing, so `preserves` is trivial. The frames of the
  kernel at both instances are the generated ones; the reference's frame is its generated run with the result dropped.
-/
import proofs.«161715_j48318382080289_1_alg».proof.Defs
import proofs.«161715_j48318382080289_1_alg».proof.Proof.Gen.Kernel
import proofs.«161715_j48318382080289_1_alg».proof.Proof.Gen.Kernel.Skeleton
import proofs.«161715_j48318382080289_1_alg».proof.Proof.Gen.Kernel.Launch
import proofs.«161715_j48318382080289_1_alg».proof.Proof.Gen.Kernel.Points
import proofs.«161715_j48318382080289_1_alg».proof.Proof.Gen.Kernel.Frame
import proofs.«161715_j48318382080289_1_alg».proof.Proof.Gen.KernelIdeal
import proofs.«161715_j48318382080289_1_alg».proof.Proof.Gen.KernelIdeal.Skeleton
import proofs.«161715_j48318382080289_1_alg».proof.Proof.Gen.KernelIdeal.Launch
import proofs.«161715_j48318382080289_1_alg».proof.Proof.Gen.KernelIdeal.Points
import proofs.«161715_j48318382080289_1_alg».proof.Proof.Gen.KernelIdeal.Frame
import proofs.«161715_j48318382080289_1_alg».proof.Proof.Gen.ReferenceIdeal
import proofs.«161715_j48318382080289_1_alg».proof.Proof.Gen.ReferenceIdeal.Run
import proofs.«161715_j48318382080289_1_alg».proof.Proof.Gen.ReferenceIdeal.Read
import proofs.«161715_j48318382080289_1_alg».proof.Proof.Gen.Pre_finite_inputs
import proofs.«161715_j48318382080289_1_alg».proof.Proof.KernelBridge
import proofs.«161715_j48318382080289_1_alg».proof.Proof.RefBridge
import Idealize.ShloMosaic.Adequacy
import Idealize.ShloMosaic.Init

noncomputable section

namespace Cert.Proof

open Idealize.ShloMosaic Idealize.SL.Sem

/-- The two programs quantize the weight by the same operations with the same constants: one function of W. -/
theorem wq_eq (w : Cert.KernelIdeal.S1024x4096.Idx → EReal) :
    Cert.KernelIdeal.HostSide.wq (F := Ideal) w = Cert.ReferenceIdeal.Read.val_main_v12 (F := Ideal) w := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the layer of the (agreeing) arguments with the quantized weight. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Final.result m c
  rw [Cert.ReferenceIdeal.Read.val_main_v17_eq, Cert.ReferenceIdeal.Bridge.result_eq, (hagree c).1, (hagree c).2.1,
    (hagree c).2.2.1, (hagree c).2.2.2, Cert.KernelIdeal.Bridge.result_eq, wq_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
